-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8x8x16 : Shape := ⟨4, ![2048, 8, 8, 16]⟩
abbrev S2048x16x8 : Shape := ⟨3, ![2048, 16, 8]⟩
abbrev S2048x8x128 : Shape := ⟨3, ![2048, 8, 128]⟩
abbrev S48x512 : Shape := ⟨2, ![48, 512]⟩
abbrev S512 : Shape := ⟨1, ![512]⟩
abbrev S512x512 : Shape := ⟨2, ![512, 512]⟩
abbrev S512x16 : Shape := ⟨2, ![512, 16]⟩
abbrev S16 : Shape := ⟨1, ![16]⟩
abbrev S_ : Shape := ⟨0, ![]⟩

class Facts : Prop where
  bcast_S_S2048x8x8x16 : S_.BroadcastsInDim S2048x8x8x16 (![] : Fin 0 → Fin S2048x8x8x16.rank)
  reducesTo_S2048x8x8x16_S_d0_1_2_3 : S2048x8x8x16.ReducesTo [0, 1, 2, 3] S_
  h_S_ : 0 < S_.numel
  bcast_S_S2048x16x8 : S_.BroadcastsInDim S2048x16x8 (![] : Fin 0 → Fin S2048x16x8.rank)
  reducesTo_S2048x16x8_S_d0_1_2 : S2048x16x8.ReducesTo [0, 1, 2] S_
  bcast_S_S2048x8x128 : S_.BroadcastsInDim S2048x8x128 (![] : Fin 0 → Fin S2048x8x128.rank)
  reducesTo_S2048x8x128_S_d0_1_2 : S2048x8x128.ReducesTo [0, 1, 2] S_
  bcast_S_S48x512 : S_.BroadcastsInDim S48x512 (![] : Fin 0 → Fin S48x512.rank)
  reducesTo_S48x512_S_d0_1 : S48x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S512x16 .f32) (main_arg8 : FVec F S16 .f32) (main_v33 : IVec S_ 1) : IVec S_ 1 :=
  let main_v34 : FVec F S512x16 .f32 := Host.absf main_arg7
  let main_cst_12 : FVec F S_ .f32 := constant S_ .f32 0x7F800000#32
  let main_v35 : FVec F S512x16 .f32 := broadcastInDim S512x16 ![] bcast_S_S512x16 main_cst_12
  let main_v36 : IVec S512x16 1 := cmpf .olt main_v34 main_v35
  let main_c_13 : IVec S_ 1 := constantI S_ 1 1#1
  let main_v37 : IVec S_ 1 := (fun x v => Host.reduce IntOp.andi x v reducesTo_S512x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S512 .f32) (main_arg5 : FVec F S512x512 .f32) (main_arg6 : FVec F S512 .f32) (main_arg7 : FVec F S512x16 .f32) (main_arg8 : FVec F S16 .f32) (main_v13 : IVec S_ 1) (main_v16 : IVec S48x512 1) : IVec S_ 1 :=
  let main_c_5 : IVec S_ 1 := constantI S_ 1 1#1
  let main_v17 : IVec S_ 1 := (fun x v => Host.reduce IntOp.andi x v reducesTo_S48x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S2048x8x8x16 .f32) (main_arg1 : FVec F S2048x16x8 .f32) (main_arg2 : FVec F S2048x8x128 .f32) (main_arg3 : FVec F S48x512 .f32) (main_arg4 : FVec F S512 .f32) (main_arg5 : FVec F S512x512 .f32) (main_arg6 : FVec F S512 .f32) (main_arg7 : FVec F S512x16 .f32) (main_arg8 : FVec F S16 .f32) : IVec S_ 1 :=
  let main_v0 : FVec F S2048x8x8x16 .f32 := Host.absf main_arg0
  let main_cst : FVec F S_ .f32 := constant S_ .f32 0x7F800000#32
  let main_v1 : FVec F S2048x8x8x16 .f32 := broadcastInDim S2048x8x8x16 ![] bcast_S_S2048x8x8x16 main_cst
  let main_v2 : IVec S2048x8x8x16 1 := cmpf .olt main_v0 main_v1
  let main_c : IVec S_ 1 := constantI S_ 1 1#1
  let main_v3 : IVec S_ 1 := (fun x v => Host.reduce IntOp.andi x v reducesTo_S2048x8x8x16_S_d0_1_2_3 h_S_) main_v2 main_c
  let main_v4 : FVec F S2048x16x8 .f32 := Host.absf main_arg1
  let main_cst_0 : FVec F S_ .f32 := constant S_ .f32 0x7F800000#32
  let main_v5 : FVec F S2048x16x8 .f32 := broadcastInDim S2048x16x8 ![] bcast_S_S2048x16x8 main_cst_0
  let main_v6 : IVec S2048x16x8 1 := cmpf .olt main_v4 main_v5
  let main_c_1 : IVec S_ 1 := constantI S_ 1 1#1
  let main_v7 : IVec S_ 1 := (fun x v => Host.reduce IntOp.andi x v reducesTo_S2048x16x8_S_d0_1_2 h_S_) main_v6 main_c_1
  let main_v8 : IVec S_ 1 := andi main_v3 main_v7
  let main_v9 : FVec F S2048x8x128 .f32 := Host.absf main_arg2
  let main_cst_2 : FVec F S_ .f32 := constant S_ .f32 0x7F800000#32
  let main_v10 : FVec F S2048x8x128 .f32 := broadcastInDim S2048x8x128 ![] bcast_S_S2048x8x128 main_cst_2
  let main_v11 : IVec S2048x8x128 1 := cmpf .olt main_v9 main_v10
  let main_c_3 : IVec S_ 1 := constantI S_ 1 1#1
  let main_v12 : IVec S_ 1 := (fun x v => Host.reduce IntOp.andi x v reducesTo_S2048x8x128_S_d0_1_2 h_S_) main_v11 main_c_3
  let main_v13 : IVec S_ 1 := andi main_v8 main_v12
  let main_v14 : FVec F S48x512 .f32 := Host.absf main_arg3
  let main_cst_4 : FVec F S_ .f32 := constant S_ .f32 0x7F800000#32
  let main_v15 : FVec F S48x512 .f32 := broadcastInDim S48x512 ![] bcast_S_S48x512 main_cst_4
  let main_v16 : IVec S48x512 1 := cmpf .olt main_v14 main_v15
  fn_part1 (F := F) main_arg4 main_arg5 main_arg6 main_arg7 main_arg8 main_v13 main_v16
-- ==== Kernel.lean ====
abbrev S2048x8x8x16 : Shape := ⟨4, ![2048, 8, 8, 16]⟩
abbrev S2048x16x8 : Shape := ⟨3, ![2048, 16, 8]⟩
abbrev S2048x8x128 : Shape := ⟨3, ![2048, 8, 128]⟩
abbrev S48x512 : Shape := ⟨2, ![48, 512]⟩
abbrev S512 : Shape := ⟨1, ![512]⟩
abbrev S512x512 : Shape := ⟨2, ![512, 512]⟩
abbrev S512x16 : Shape := ⟨2, ![512, 16]⟩
abbrev S16 : Shape := ⟨1, ![16]⟩
abbrev S_ : Shape := ⟨0, ![]⟩
abbrev S2048x8x16 : Shape := ⟨3, ![2048, 8, 16]⟩
abbrev S2048x8x64 : Shape := ⟨3, ![2048, 8, 64]⟩
abbrev S2048x8x8x8 : Shape := ⟨4, ![2048, 8, 8, 8]⟩
abbrev S2048x8x1x16 : Shape := ⟨4, ![2048, 8, 1, 16]⟩
abbrev S2048x8x8x48 : Shape := ⟨4, ![2048, 8, 8, 48]⟩
abbrev S131072x48 : Shape := ⟨2, ![131072, 48]⟩
abbrev S131072x16 : Shape := ⟨2, ![131072, 16]⟩
abbrev S4096x48 : Shape := ⟨2, ![4096, 48]⟩
abbrev S4096x16 : Shape := ⟨2, ![4096, 16]⟩
abbrev S4096x512 : Shape := ⟨2, ![4096, 512]⟩
abbrev S1x512 : Shape := ⟨2, ![1, 512]⟩
abbrev S1x16 : Shape := ⟨2, ![1, 16]⟩

abbrev nBuf : Space → Nat
  | .hbm => 26
  | .vmem => 10
  | .smem => 0
  | _ => 0

abbrev bufTy : (tb : Table) → Fin (tcTables nBuf tb) → BufTy
  | .hbm, ⟨0, _⟩ => ⟨S2048x8x8x16, .f32⟩
  | .hbm, ⟨1, _⟩ => ⟨S2048x16x8, .f32⟩
  | .hbm, ⟨2, _⟩ => ⟨S2048x8x128, .f32⟩
  | .hbm, ⟨3, _⟩ => ⟨S48x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x16, .f32⟩
  | .hbm, ⟨8, _⟩ => ⟨S16, .f32⟩
  | .hbm, ⟨9, _⟩ => ⟨S_, .f32⟩
  | .hbm, ⟨10, _⟩ => ⟨S2048x8x16, .f32⟩
  | .hbm, ⟨11, _⟩ => ⟨S2048x8x16, .f32⟩
  | .hbm, ⟨12, _⟩ => ⟨S2048x8x64, .f32⟩
  | .hbm, ⟨13, _⟩ => ⟨S2048x8x8x8, .f32⟩
  | .hbm, ⟨14, _⟩ => ⟨S2048x8x8x8, .f32⟩
  | .hbm, ⟨15, _⟩ => ⟨S2048x8x64, .f32⟩
  | .hbm, ⟨16, _⟩ => ⟨S2048x8x8x8, .f32⟩
  | .hbm, ⟨17, _⟩ => ⟨S2048x8x8x8, .f32⟩
  | .hbm, ⟨18, _⟩ => ⟨S2048x8x1x16, .f32⟩
  | .hbm, ⟨19, _⟩ => ⟨S2048x8x8x16, .f32⟩
  | .hbm, ⟨20, _⟩ => ⟨S2048x8x1x16, .f32⟩
  | .hbm, ⟨21, _⟩ => ⟨S2048x8x8x16, .f32⟩
  | .hbm, ⟨22, _⟩ => ⟨S2048x8x8x48, .f32⟩
  | .hbm, ⟨23, _⟩ => ⟨S131072x48, .f32⟩
  | .hbm, ⟨24, _⟩ => ⟨S131072x16, .f32⟩
  | .hbm, ⟨25, _⟩ => ⟨S2048x8x8x16, .f32⟩
  | .local _ .vmem, ⟨0, _⟩ => ⟨S4096x48, .f32⟩
  | .local _ .vmem, ⟨1, _⟩ => ⟨S4096x48, .f32⟩
  | .local _ .vmem, ⟨2, _⟩ => ⟨S48x512, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S512x16, .f32⟩
  | .local _ .vmem, ⟨7, _⟩ => ⟨S16, .f32⟩
  | .local _ .vmem, ⟨8, _⟩ => ⟨S4096x16, .f32⟩
  | .local _ .vmem, ⟨9, _⟩ => ⟨S4096x16, .f32⟩
  | _, _ => ⟨S2048x8x8x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S2048x8x8x16_S2048x8x16_d1 : S2048x8x8x16.ReducesTo [1] S2048x8x16
  h_S_ : 0 < S_.numel
  transposes_S2048x16x8_S2048x8x16_0_2_1 : S2048x16x8.Transposes [0, 2, 1] S2048x8x16
  slices_S2048x8x128_S2048x8x64_0_0_0 : S2048x8x128.Slices ![0, 0, 0] S2048x8x64
  shapeCasts_S2048x8x64_S2048x8x8x8 : S2048x8x64.ShapeCasts S2048x8x8x8
  transposes_S2048x8x8x8_S2048x8x8x8_0_2_1_3 : S2048x8x8x8.Transposes [0, 2, 1, 3] S2048x8x8x8
  slices_S2048x8x128_S2048x8x64_0_0_64 : S2048x8x128.Slices ![0, 0, 64] S2048x8x64
  bcast_S2048x8x16_S2048x8x1x16_0_1_3 : S2048x8x16.BroadcastsInDim S2048x8x1x16 (![0, 1, 3] : Fin 3 → Fin S2048x8x1x16.rank)
  bcast_S2048x8x1x16_S2048x8x8x16_0_1_2_3 : S2048x8x1x16.BroadcastsInDim S2048x8x8x16 (![0, 1, 2, 3] : Fin 4 → Fin S2048x8x8x16.rank)
  concatenates_S2048x8x8x16_S2048x8x8x16_S2048x8x8x8_S2048x8x8x8_S2048x8x8x48_d3 : Shape.Concatenates [S2048x8x8x16, S2048x8x8x16, S2048x8x8x8, S2048x8x8x8] S2048x8x8x48 3
  shapeCasts_S2048x8x8x48_S131072x48 : S2048x8x8x48.ShapeCasts S131072x48
  inb_S4096x48_S4096x48_0_0 : ∀ a, (![0, 0] : Fin 2 → Nat) a + S4096x48.size a ≤ S4096x48.size a
  h_S4096x48 : 0 < S4096x48.numel
  shapeCasts_S4096x48_S4096x48 : S4096x48.ShapeCasts S4096x48
  bitsLt_bf16_f32 : FTy.bits .bf16 < FTy.bits .f32
  inb_S48x512_S48x512_0_0 : ∀ a, (![0, 0] : Fin 2 → Nat) a + S48x512.size a ≤ S48x512.size a
  h_S48x512 : 0 < S48x512.numel
  inb_S512_S512_0 : ∀ a, (![0] : Fin 1 → Nat) a + S512.size a ≤ S512.size a
  h_S512 : 0 < S512.numel
  shapeCasts_S512_S1x512 : S512.ShapeCasts S1x512
  broadcasts_S1x512_S4096x512 : S1x512.Broadcasts S4096x512
  inb_S512x512_S512x512_0_0 : ∀ a, (![0, 0] : Fin 2 → Nat) a + S512x512.size a ≤ S512x512.size a
  h_S512x512 : 0 < S512x512.numel
  inb_S512x16_S512x16_0_0 : ∀ a, (![0, 0] : Fin 2 → Nat) a + S512x16.size a ≤ S512x16.size a
  h_S512x16 : 0 < S512x16.numel
  inb_S16_S16_0 : ∀ a, (![0] : Fin 1 → Nat) a + S16.size a ≤ S16.size a
  h_S16 : 0 < S16.numel
  shapeCasts_S16_S1x16 : S16.ShapeCasts S1x16
  broadcasts_S1x16_S4096x16 : S1x16.Broadcasts S4096x16
  inb_S4096x16_S4096x16_0_0 : ∀ a, (![0, 0] : Fin 2 → Nat) a + S4096x16.size a ≤ S4096x16.size a
  h_S4096x16 : 0 < S4096x16.numel
  shapeCasts_S131072x16_S2048x8x8x16 : S131072x16.ShapeCasts S2048x8x8x16
  dot_S4096x48_S48x512_S4096x512_1_0_0_1_n_n_wf : DotDims.WF S4096x48 S48x512 S4096x512 [1] [0] [0] [1] [] []
  dot_S4096x512_S512x512_S4096x512_1_0_0_1_n_n_wf : DotDims.WF S4096x512 S512x512 S4096x512 [1] [0] [0] [1] [] []
  dot_S4096x512_S512x16_S4096x16_1_0_0_1_n_n_wf : DotDims.WF S4096x512 S512x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x48.size a ≤ S131072x48.size a
  hwx0_0 : ∀ i : grid0.Coords, EltTy.bits .f32 = 32 ∨ (Rect.block (s := S131072x48) S4096x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x512.size a ≤ S48x512.size a
  hwx0_1 : ∀ i : grid0.Coords, EltTy.bits .f32 = 32 ∨ (Rect.block (s := S48x512) S48x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x16.size a ≤ S512x16.size a
  hwx0_5 : ∀ i : grid0.Coords, EltTy.bits .f32 = 32 ∨ (Rect.block (s := S512x16) S512x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x16.size a ≤ S131072x16.size a
  hwx0_7 : ∀ i : grid0.Coords, EltTy.bits .f32 = 32 ∨ (Rect.block (s := S131072x16) S4096x16.size (cc0_transform_7 i) (hinb0_7 i)).WholeWords (EltTy.packing .f32)

variable [Facts₀]

def dot_S4096x48_S48x512_S4096x512_1_0_0_1_n_n : DotDims S4096x48 S48x512 S4096x512 where
  lhsContracting := [1]
  rhsContracting := [0]
  lhsNonContracting := [0]
  rhsNonContracting := [1]
  lhsBatch := []
  rhsBatch := []
  wf := dot_S4096x48_S48x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x16_S4096x16_1_0_0_1_n_n : DotDims S4096x512 S512x16 S4096x16 where
  lhsContracting := [1]
  rhsContracting := [0]
  lhsNonContracting := [0]
  rhsNonContracting := [1]
  lhsBatch := []
  rhsBatch := []
  wf := dot_S4096x512_S512x16_S4096x16_1_0_0_1_n_n_wf

abbrev win0_0 : Pipeline.Window sig grid0 :=
  Pipeline.Window.ofSpec (Memref.whole main_v13) S4096x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S48x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S512x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S4096x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x8x8x16 : Shape := ⟨4, ![2048, 8, 8, 16]⟩
abbrev S2048x16x8 : Shape := ⟨3, ![2048, 16, 8]⟩
abbrev S2048x8x128 : Shape := ⟨3, ![2048, 8, 128]⟩
abbrev S48x512 : Shape := ⟨2, ![48, 512]⟩
abbrev S512 : Shape := ⟨1, ![512]⟩
abbrev S512x512 : Shape := ⟨2, ![512, 512]⟩
abbrev S512x16 : Shape := ⟨2, ![512, 16]⟩
abbrev S16 : Shape := ⟨1, ![16]⟩
abbrev S_ : Shape := ⟨0, ![]⟩
abbrev S2048x8x16 : Shape := ⟨3, ![2048, 8, 16]⟩
abbrev S2048x8x64 : Shape := ⟨3, ![2048, 8, 64]⟩
abbrev S2048x8x8x8 : Shape := ⟨4, ![2048, 8, 8, 8]⟩
abbrev S2048x8x1x16 : Shape := ⟨4, ![2048, 8, 1, 16]⟩
abbrev S2048x8x8x48 : Shape := ⟨4, ![2048, 8, 8, 48]⟩
abbrev S2048x8x8x512 : Shape := ⟨4, ![2048, 8, 8, 512]⟩
abbrev S1x1x1x512 : Shape := ⟨4, ![1, 1, 1, 512]⟩
abbrev S1x1x1x16 : Shape := ⟨4, ![1, 1, 1, 16]⟩

abbrev nBuf : Space → Nat
  | .hbm => 42
  | .vmem => 0
  | .smem => 0
  | _ => 0

abbrev bufTy : (tb : Table) → Fin (tcTables nBuf tb) → BufTy
  | .hbm, ⟨0, _⟩ => ⟨S2048x8x8x16, .f32⟩
  | .hbm, ⟨1, _⟩ => ⟨S2048x16x8, .f32⟩
  | .hbm, ⟨2, _⟩ => ⟨S2048x8x128, .f32⟩
  | .hbm, ⟨3, _⟩ => ⟨S48x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x16, .f32⟩
  | .hbm, ⟨8, _⟩ => ⟨S16, .f32⟩
  | .hbm, ⟨9, _⟩ => ⟨S_, .f32⟩
  | .hbm, ⟨10, _⟩ => ⟨S2048x8x16, .f32⟩
  | .hbm, ⟨11, _⟩ => ⟨S2048x8x16, .f32⟩
  | .hbm, ⟨12, _⟩ => ⟨S2048x8x64, .f32⟩
  | .hbm, ⟨13, _⟩ => ⟨S2048x8x8x8, .f32⟩
  | .hbm, ⟨14, _⟩ => ⟨S2048x8x8x8, .f32⟩
  | .hbm, ⟨15, _⟩ => ⟨S2048x8x64, .f32⟩
  | .hbm, ⟨16, _⟩ => ⟨S2048x8x8x8, .f32⟩
  | .hbm, ⟨17, _⟩ => ⟨S2048x8x8x8, .f32⟩
  | .hbm, ⟨18, _⟩ => ⟨S2048x8x1x16, .f32⟩
  | .hbm, ⟨19, _⟩ => ⟨S2048x8x8x16, .f32⟩
  | .hbm, ⟨20, _⟩ => ⟨S2048x8x1x16, .f32⟩
  | .hbm, ⟨21, _⟩ => ⟨S2048x8x8x16, .f32⟩
  | .hbm, ⟨22, _⟩ => ⟨S2048x8x8x48, .f32⟩
  | .hbm, ⟨23, _⟩ => ⟨S2048x8x8x512, .f32⟩
  | .hbm, ⟨24, _⟩ => ⟨S1x1x1x512, .f32⟩
  | .hbm, ⟨25, _⟩ => ⟨S2048x8x8x512, .f32⟩
  | .hbm, ⟨26, _⟩ => ⟨S2048x8x8x512, .f32⟩
  | .hbm, ⟨27, _⟩ => ⟨S_, .f32⟩
  | .hbm, ⟨28, _⟩ => ⟨S2048x8x8x512, .f32⟩
  | .hbm, ⟨29, _⟩ => ⟨S2048x8x8x512, .f32⟩
  | .hbm, ⟨30, _⟩ => ⟨S2048x8x8x512, .f32⟩
  | .hbm, ⟨31, _⟩ => ⟨S1x1x1x512, .f32⟩
  | .hbm, ⟨32, _⟩ => ⟨S2048x8x8x512, .f32⟩
  | .hbm, ⟨33, _⟩ => ⟨S2048x8x8x512, .f32⟩
  | .hbm, ⟨34, _⟩ => ⟨S_, .f32⟩
  | .hbm, ⟨35, _⟩ => ⟨S2048x8x8x512, .f32⟩
  | .hbm, ⟨36, _⟩ => ⟨S2048x8x8x512, .f32⟩
  | .hbm, ⟨37, _⟩ => ⟨S2048x8x8x16, .f32⟩
  | .hbm, ⟨38, _⟩ => ⟨S1x1x1x16, .f32⟩
  | .hbm, ⟨39, _⟩ => ⟨S2048x8x8x16, .f32⟩
  | .hbm, ⟨40, _⟩ => ⟨S2048x8x8x16, .f32⟩
  | .hbm, ⟨41, _⟩ => ⟨S2048x8x8x16, .f32⟩
  | _, _ => ⟨S2048x8x8x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call1_cst : Ref sig .tc := ⟨.hbm, 34, rfl⟩
abbrev main_call1_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  reducesTo_S2048x8x8x16_S2048x8x16_d1 : S2048x8x8x16.ReducesTo [1] S2048x8x16
  h_S_ : 0 < S_.numel
  transposes_S2048x16x8_S2048x8x16_0_2_1 : S2048x16x8.Transposes [0, 2, 1] S2048x8x16
  slices_S2048x8x128_S2048x8x64_0_0_0 : S2048x8x128.Slices ![0, 0, 0] S2048x8x64
  shapeCasts_S2048x8x64_S2048x8x8x8 : S2048x8x64.ShapeCasts S2048x8x8x8
  transposes_S2048x8x8x8_S2048x8x8x8_0_2_1_3 : S2048x8x8x8.Transposes [0, 2, 1, 3] S2048x8x8x8
  slices_S2048x8x128_S2048x8x64_0_0_64 : S2048x8x128.Slices ![0, 0, 64] S2048x8x64
  bcast_S2048x8x16_S2048x8x1x16_0_1_3 : S2048x8x16.BroadcastsInDim S2048x8x1x16 (![0, 1, 3] : Fin 3 → Fin S2048x8x1x16.rank)
  bcast_S2048x8x1x16_S2048x8x8x16_0_1_2_3 : S2048x8x1x16.BroadcastsInDim S2048x8x8x16 (![0, 1, 2, 3] : Fin 4 → Fin S2048x8x8x16.rank)
  concatenates_S2048x8x8x16_S2048x8x8x16_S2048x8x8x8_S2048x8x8x8_S2048x8x8x48_d3 : Shape.Concatenates [S2048x8x8x16, S2048x8x8x16, S2048x8x8x8, S2048x8x8x8] S2048x8x8x48 3
  bcast_S512_S1x1x1x512_3 : S512.BroadcastsInDim S1x1x1x512 (![3] : Fin 1 → Fin S1x1x1x512.rank)
  bcast_S1x1x1x512_S2048x8x8x512_0_1_2_3 : S1x1x1x512.BroadcastsInDim S2048x8x8x512 (![0, 1, 2, 3] : Fin 4 → Fin S2048x8x8x512.rank)
  bcast_S_S2048x8x8x512 : S_.BroadcastsInDim S2048x8x8x512 (![] : Fin 0 → Fin S2048x8x8x512.rank)
  bcast_S16_S1x1x1x16_3 : S16.BroadcastsInDim S1x1x1x16 (![3] : Fin 1 → Fin S1x1x1x16.rank)
  bcast_S1x1x1x16_S2048x8x8x16_0_1_2_3 : S1x1x1x16.BroadcastsInDim S2048x8x8x16 (![0, 1, 2, 3] : Fin 4 → Fin S2048x8x8x16.rank)
  dot_S2048x8x8x48_S48x512_S2048x8x8x512_3_0_012_1_n_n_wf : DotDims.WF S2048x8x8x48 S48x512 S2048x8x8x512 [3] [0] [0, 1, 2] [1] [] []
  dot_S2048x8x8x512_S512x512_S2048x8x8x512_3_0_012_1_n_n_wf : DotDims.WF S2048x8x8x512 S512x512 S2048x8x8x512 [3] [0] [0, 1, 2] [1] [] []
  dot_S2048x8x8x512_S512x16_S2048x8x8x16_3_0_012_1_n_n_wf : DotDims.WF S2048x8x8x512 S512x16 S2048x8x8x16 [3] [0] [0, 1, 2] [1] [] []

variable [Facts₀]

def dot_S2048x8x8x48_S48x512_S2048x8x8x512_3_0_012_1_n_n : DotDims S2048x8x8x48 S48x512 S2048x8x8x512 where
  lhsContracting := [3]
  rhsContracting := [0]
  lhsNonContracting := [0, 1, 2]
  rhsNonContracting := [1]
  lhsBatch := []
  rhsBatch := []
  wf := dot_S2048x8x8x48_S48x512_S2048x8x8x512_3_0_012_1_n_n_wf
def dot_S2048x8x8x512_S512x512_S2048x8x8x512_3_0_012_1_n_n : DotDims S2048x8x8x512 S512x512 S2048x8x8x512 where
  lhsContracting := [3]
  rhsContracting := [0]
  lhsNonContracting := [0, 1, 2]
  rhsNonContracting := [1]
  lhsBatch := []
  rhsBatch := []
  wf := dot_S2048x8x8x512_S512x512_S2048x8x8x512_3_0_012_1_n_n_wf
def dot_S2048x8x8x512_S512x16_S2048x8x8x16_3_0_012_1_n_n : DotDims S2048x8x8x512 S512x16 S2048x8x8x16 where
  lhsContracting := [3]
  rhsContracting := [0]
  lhsNonContracting := [0, 1, 2]
  rhsNonContracting := [1]
  lhsBatch := []
  rhsBatch := []
  wf := dot_S2048x8x8x512_S512x16_S2048x8x8x16_3_0_012_1_n_n_wf

class Facts : Prop extends Facts₀ where

variable [Facts]
-- ==== Proof.KFrame.lean ====
/-
  The frame of `Kernel`: @main is fifteen host operations (a sum over one axis, transposes, slices,
  reshapes, broadcasts and one concatenation, which build the 131072 × 48 matrix of MLP inputs), one kernel
  region on a grid of 32 points, and one reshape of the region's result.  Each grid point loads a block of
  4096 rows of the input matrix and the three weight matrices and three bias vectors whole, and stores one
  4096 × 16 block of the result; nothing is carried from point to point.  So what the result window's
  buffer holds after the body is ONE function (`out0_7`) of the seven input blocks, the input windows'
  buffers are left as they were found, and the nine argument arrays — three of them read only by the host
  operations, six of them staged by the region as inputs — end as they were launched.
-/
import proofs.«153805_j36867999269161_1_alg».proof.Proof.Gen.Kernel.Launch
import proofs.«153805_j36867999269161_1_alg».proof.Proof.Gen.Kernel.Skeleton
import proofs.«153805_j36867999269161_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the fifteen host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations, the region, and the reshape after it: it reduces to the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches the region's result array and one bypassing buffer only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline (it writes `main_v15`, which no window stages). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- The reshape after the region does not write `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The reshape after the region does not write `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- The reshape after the region does not write `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the block was fetched there
    (window 0: at every point) or is still the one fetched at the first point (the weights and biases: their
    block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post — every window's array at what the proof data computes, every other
    unscoped buffer as the reshape leaves it — to the nine arguments unchanged: the three the region does not
    stage by the post's second clause, the six it stages as inputs by `Dat.arrAt_in`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c)))⟩) h

/-! ## The body's accesses: every load and the one store take the whole buffer -/

abbrev r0_0 : Rect S4096x48 := Rect.unit (s := S4096x48) ![0, 0] S4096x48.size inb_S4096x48_S4096x48_0_0
abbrev r0_1 : Rect S48x512 := Rect.unit (s := S48x512) ![0, 0] S48x512.size inb_S48x512_S48x512_0_0
abbrev r0_2 : Rect S512 := Rect.unit (s := S512) ![0] S512.size inb_S512_S512_0
abbrev r0_3 : Rect S512x512 := Rect.unit (s := S512x512) ![0, 0] S512x512.size inb_S512x512_S512x512_0_0
abbrev r0_5 : Rect S512x16 := Rect.unit (s := S512x16) ![0, 0] S512x16.size inb_S512x16_S512x16_0_0
abbrev r0_6 : Rect S16 := Rect.unit (s := S16) ![0] S16.size inb_S16_S16_0
abbrev r0_7 : Rect S4096x16 := Rect.unit (s := S4096x16) ![0, 0] S4096x16.size inb_S4096x16_S4096x16_0_0

/-! ## What the body leaves in the result window's buffer -/

/-- The result window's staging buffer after the body: its one store, of the MLP's value on the seven input blocks. -/
def out0_7 (x0 : Vec F S4096x48 .f32) (x1 : Vec F S48x512 .f32) (x2 : Vec F S512 .f32) (x3 : Vec F S512x512 .f32) (x4 : Vec F S512 .f32) (x5 : Vec F S512x16 .f32) (x6 : Vec F S16 .f32) : Vec F S4096x16 .f32 :=
  View.canon [⟨r0_7, k0_pay1 (View.ld x0 r0_0) (View.ld x1 r0_1) (View.ld x2 r0_2) (View.ld x3 r0_3) (View.ld x4 r0_2) (View.ld x5 r0_5) (View.ld x6 r0_6)⟩]

/-- The one store covers the buffer. -/
theorem cover0_7 (p0 : Vec F S4096x16 .f32) (y : S4096x16.Idx) :
    ∃ pc ∈ ([⟨r0_7, p0⟩] : List (View.Piece (Elt F) S4096x16 .f32)), y ∈ pc.1.set :=
  View.cover_of_tiled [⟨r0_7, p0⟩] S4096x16.size (by rfl) y

/-! ## The body's triple -/

set_option maxHeartbeats 1000000 in
/-- The body on whole staging memrefs, the seven inputs' at contents `x0 … x6` and the result's at anything, runs to
    the continuation with the inputs' as they were and the result's at `out0_7` of them.  (The body also loads the
    result buffer before it stores into it; the loaded value is used by nothing.) -/
theorem sound_kernel (c : Dev nD) (E : Set ℕ) (i : grid0.Coords) (arg1 : Memref sig .tc .vmem S4096x48 .f32) (harg1 : arg1.IsWhole) (arg2 : Memref sig .tc .vmem S48x512 .f32) (harg2 : arg2.IsWhole) (arg3 : Memref sig .tc .vmem S512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x16 .f32) (harg6 : arg6.IsWhole) (arg7 : Memref sig .tc .vmem S16 .f32) (harg7 : arg7.IsWhole) (arg8 : Memref sig .tc .vmem S4096x16 .f32) (harg8 : arg8.IsWhole)
    (x0 : Vec F S4096x48 .f32) (x1 : Vec F S48x512 .f32) (x2 : Vec F S512 .f32) (x3 : Vec F S512x512 .f32) (x4 : Vec F S512 .f32) (x5 : Vec F S512x16 .f32) (x6 : Vec F S16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data on core `c`: the arrays as the region finds them; after the body at point `t` each input's
    buffer at its block and the result's at `out0_7` of the seven blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and every final state has
    every array of the pipeline at what the library computes from the proof data and every other unscoped buffer as
    the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and its nine argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Fr

end
-- ==== Proof.KIFrame.lean ====
/-
  The frame of `KernelIdeal`: @main is fifteen host operations (a sum over one axis, transposes, slices,
  reshapes, broadcasts and one concatenation, which build the 131072 × 48 matrix of MLP inputs), one kernel
  region on a grid of 32 points, and one reshape of the region's result.  Each grid point loads a block of
  4096 rows of the input matrix and the three weight matrices and three bias vectors whole, and stores one
  4096 × 16 block of the result; nothing is carried from point to point.  So what the result window's
  buffer holds after the body is ONE function (`out0_7`) of the seven input blocks, the input windows'
  buffers are left as they were found, and the nine argument arrays — three of them read only by the host
  operations, six of them staged by the region as inputs — end as they were launched.
-/
import proofs.«153805_j36867999269161_1_alg».proof.Proof.Gen.KernelIdeal.Launch
import proofs.«153805_j36867999269161_1_alg».proof.Proof.Gen.KernelIdeal.Skeleton
import proofs.«153805_j36867999269161_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the fifteen host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations, the region, and the reshape after it: it reduces to the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches the region's result array and one bypassing buffer only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline (it writes `main_v15`, which no window stages). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- The reshape after the region does not write `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The reshape after the region does not write `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- The reshape after the region does not write `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the block was fetched there
    (window 0: at every point) or is still the one fetched at the first point (the weights and biases: their
    block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post — every window's array at what the proof data computes, every other
    unscoped buffer as the reshape leaves it — to the nine arguments unchanged: the three the region does not
    stage by the post's second clause, the six it stages as inputs by `Dat.arrAt_in`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c)))⟩) h

/-! ## The body's accesses: every load and the one store take the whole buffer -/

abbrev r0_0 : Rect S4096x48 := Rect.unit (s := S4096x48) ![0, 0] S4096x48.size inb_S4096x48_S4096x48_0_0
abbrev r0_1 : Rect S48x512 := Rect.unit (s := S48x512) ![0, 0] S48x512.size inb_S48x512_S48x512_0_0
abbrev r0_2 : Rect S512 := Rect.unit (s := S512) ![0] S512.size inb_S512_S512_0
abbrev r0_3 : Rect S512x512 := Rect.unit (s := S512x512) ![0, 0] S512x512.size inb_S512x512_S512x512_0_0
abbrev r0_5 : Rect S512x16 := Rect.unit (s := S512x16) ![0, 0] S512x16.size inb_S512x16_S512x16_0_0
abbrev r0_6 : Rect S16 := Rect.unit (s := S16) ![0] S16.size inb_S16_S16_0
abbrev r0_7 : Rect S4096x16 := Rect.unit (s := S4096x16) ![0, 0] S4096x16.size inb_S4096x16_S4096x16_0_0

/-! ## What the body leaves in the result window's buffer -/

/-- The result window's staging buffer after the body: its one store, of the MLP's value on the seven input blocks. -/
def out0_7 (x0 : Vec F S4096x48 .f32) (x1 : Vec F S48x512 .f32) (x2 : Vec F S512 .f32) (x3 : Vec F S512x512 .f32) (x4 : Vec F S512 .f32) (x5 : Vec F S512x16 .f32) (x6 : Vec F S16 .f32) : Vec F S4096x16 .f32 :=
  View.canon [⟨r0_7, k0_pay1 (View.ld x0 r0_0) (View.ld x1 r0_1) (View.ld x2 r0_2) (View.ld x3 r0_3) (View.ld x4 r0_2) (View.ld x5 r0_5) (View.ld x6 r0_6)⟩]

/-- The one store covers the buffer. -/
theorem cover0_7 (p0 : Vec F S4096x16 .f32) (y : S4096x16.Idx) :
    ∃ pc ∈ ([⟨r0_7, p0⟩] : List (View.Piece (Elt F) S4096x16 .f32)), y ∈ pc.1.set :=
  View.cover_of_tiled [⟨r0_7, p0⟩] S4096x16.size (by rfl) y

/-! ## The body's triple -/

set_option maxHeartbeats 1000000 in
/-- The body on whole staging memrefs, the seven inputs' at contents `x0 … x6` and the result's at anything, runs to
    the continuation with the inputs' as they were and the result's at `out0_7` of them.  (The body also loads the
    result buffer before it stores into it; the loaded value is used by nothing.) -/
theorem sound_kernel (c : Dev nD) (E : Set ℕ) (i : grid0.Coords) (arg1 : Memref sig .tc .vmem S4096x48 .f32) (harg1 : arg1.IsWhole) (arg2 : Memref sig .tc .vmem S48x512 .f32) (harg2 : arg2.IsWhole) (arg3 : Memref sig .tc .vmem S512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x16 .f32) (harg6 : arg6.IsWhole) (arg7 : Memref sig .tc .vmem S16 .f32) (harg7 : arg7.IsWhole) (arg8 : Memref sig .tc .vmem S4096x16 .f32) (harg8 : arg8.IsWhole)
    (x0 : Vec F S4096x48 .f32) (x1 : Vec F S48x512 .f32) (x2 : Vec F S512 .f32) (x3 : Vec F S512x512 .f32) (x4 : Vec F S512 .f32) (x5 : Vec F S512x16 .f32) (x6 : Vec F S16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data on core `c`: the arrays as the region finds them; after the body at point `t` each input's
    buffer at its block and the result's at `out0_7` of the seven blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and every final state has
    every array of the pipeline at what the library computes from the proof data and every other unscoped buffer as
    the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and its nine argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Fr

end
-- ==== Proof.MlpRow.lean ====
/-
  One row of the three-layer perceptron over the extended reals: from a row `x` of 48 inputs,
  `tanh (relu (relu (x · W1 + b1) · W2 + b2) · W3 + b3)`, the products and sums those of the extended reals,
  `relu y = max y 0`.  Both programs compute, for every one of the 131072 rows of the gathered input matrix,
  exactly this function of the row; the kernel does it 4096 rows at a time through the matrix unit, the
  reference with three whole contractions over the last axis of a rank-4 array.
-/
import Idealize.ShloMosaic.PureOps.Ideal
import Idealize.ShloMosaic.PureOps.Ideal.Laws
import Idealize.ShloMosaic.Lib.ValueIdx

noncomputable section

namespace Cert.Mlp

open Idealize.ShloMosaic

/-- One affine layer on one row: entry `j` of `x · W + b`. -/
def affine {K N : ℕ} (x : Fin K → EReal) (W : Fin K → Fin N → EReal) (b : Fin N → EReal) (j : Fin N) : EReal :=
  (∑ k : Fin K, x k * W k j) + b j

/-- Entry `q` of the perceptron's output on the row `x`. -/
def mlpRow (x : Fin 48 → EReal) (W1 : Fin 48 → Fin 512 → EReal) (b1 : Fin 512 → EReal)
    (W2 : Fin 512 → Fin 512 → EReal) (b2 : Fin 512 → EReal) (W3 : Fin 512 → Fin 16 → EReal) (b3 : Fin 16 → EReal)
    (q : Fin 16) : EReal :=
  Ideal.tanh (affine (fun k => max (affine (fun h => max (affine x W1 b1 h) 0) W2 b2 k) 0) W3 b3 q)

end Cert.Mlp

end
-- ==== Proof.KIPay.lean ====
/-
  The kernel body's arithmetic (`k0_pay1`: the value it stores) read at an entry of the 4096 × 16 block, at the
  ideal instance: row `p`, column `q` of the block is the perceptron's output `q` on row `p` of the loaded input
  block.  The casts to bf16 are the identity on extended reals; each product of the matrix unit into a zero
  accumulator is a sum over its contracted axis; a bias is added to every row; `maximumf` against the zero
  splat is `max · 0`.
-/
import proofs.«153805_j36867999269161_1_alg».proof.Proof.Gen.KernelIdeal.Skeleton
import proofs.«153805_j36867999269161_1_alg».proof.Proof.MlpRow
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Cert.Mlp
open Idealize.ShloMosaic Idealize.ShloMosaic.ValueIdx

/-! ### The 4096x48 by 48x512 product -/

theorem lhs1_0 (i : S4096x512.Idx) (q : dot_S4096x48_S48x512_S4096x512_1_0_0_1_n_n.contr.Idx) :
    (dot_S4096x48_S48x512_S4096x512_1_0_0_1_n_n.lhsIdx i q 0).val = (i 0).val := by
  unfold DotDims.lhsIdx
  rw [dif_neg (show ¬(0 : Fin S4096x48.rank) ∈ dot_S4096x48_S48x512_S4096x512_1_0_0_1_n_n.lhsBatch by decide), dif_pos (show (0 : Fin S4096x48.rank) ∈ dot_S4096x48_S48x512_S4096x512_1_0_0_1_n_n.lhsNonContracting by decide)]
  rfl
theorem lhs1_1 (i : S4096x512.Idx) (q : dot_S4096x48_S48x512_S4096x512_1_0_0_1_n_n.contr.Idx) :
    (dot_S4096x48_S48x512_S4096x512_1_0_0_1_n_n.lhsIdx i q 1).val = (q ⟨0, by decide⟩).val :=
  dot_S4096x48_S48x512_S4096x512_1_0_0_1_n_n.lhsIdx_val_of_single rfl i q
theorem rhs1_0 (i : S4096x512.Idx) (q : dot_S4096x48_S48x512_S4096x512_1_0_0_1_n_n.contr.Idx) :
    (dot_S4096x48_S48x512_S4096x512_1_0_0_1_n_n.rhsIdx i q 0).val = (q ⟨0, by decide⟩).val :=
  dot_S4096x48_S48x512_S4096x512_1_0_0_1_n_n.rhsIdx_val_of_single rfl i q
theorem rhs1_1 (i : S4096x512.Idx) (q : dot_S4096x48_S48x512_S4096x512_1_0_0_1_n_n.contr.Idx) :
    (dot_S4096x48_S48x512_S4096x512_1_0_0_1_n_n.rhsIdx i q 1).val = (i 1).val := by
  unfold DotDims.rhsIdx
  rw [dif_neg (show ¬(1 : Fin S48x512.rank) ∈ dot_S4096x48_S48x512_S4096x512_1_0_0_1_n_n.rhsBatch by decide), dif_pos (show (1 : Fin S48x512.rank) ∈ dot_S4096x48_S48x512_S4096x512_1_0_0_1_n_n.rhsNonContracting by decide)]
  rfl

/-- The matrix unit's product into a zero accumulator, at row `p` and column `n`: the sum over the 48 contracted positions. -/
theorem mm1_apply (l : FVec Ideal S4096x48 .bf16) (r : FVec Ideal S48x512 .bf16) (p : Fin 4096) (n : Fin 512) :
    matmul dot_S4096x48_S48x512_S4096x512_1_0_0_1_n_n none l r (constant S4096x512 .f32 0x00000000#32) (ix2 p n)
      = ∑ k : Fin 48, l (ix2 p k) * r (ix2 k n) := by
  show FloatOps.matmul dot_S4096x48_S48x512_S4096x512_1_0_0_1_n_n none l r (constant S4096x512 .f32 0x00000000#32) (ix2 p n) = _
  rw [Ideal.matmul_constant_zero_apply, ← Equiv.sum_comp (ValueIdx.contrEquiv1 dot_S4096x48_S48x512_S4096x512_1_0_0_1_n_n 48 rfl rfl).symm]
  refine Finset.sum_congr rfl fun k _ => ?_
  have hk := ValueIdx.contrEquiv1_symm_val dot_S4096x48_S48x512_S4096x512_1_0_0_1_n_n 48 rfl rfl k
  have el : dot_S4096x48_S48x512_S4096x512_1_0_0_1_n_n.lhsIdx (ix2 p n) ((ValueIdx.contrEquiv1 dot_S4096x48_S48x512_S4096x512_1_0_0_1_n_n 48 rfl rfl).symm k) = ix2 p k := funext fun a => Fin.ext (by
    match a with
    | ⟨0, _⟩ => exact lhs1_0 _ _
    | ⟨1, _⟩ => exact (lhs1_1 _ _).trans hk)
  have er : dot_S4096x48_S48x512_S4096x512_1_0_0_1_n_n.rhsIdx (ix2 p n) ((ValueIdx.contrEquiv1 dot_S4096x48_S48x512_S4096x512_1_0_0_1_n_n 48 rfl rfl).symm k) = ix2 k n := funext fun a => Fin.ext (by
    match a with
    | ⟨0, _⟩ => exact (rhs1_0 _ _).trans hk
    | ⟨1, _⟩ => exact rhs1_1 _ _)
  rw [el, er]

/-! ### The 4096x512 by 512x512 product -/

theorem lhs2_0 (i : S4096x512.Idx) (q : dot_S4096x512_S512x512_S4096x512_1_0_0_1_n_n.contr.Idx) :
    (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
theorem lhs2_1 (i : S4096x512.Idx) (q : dot_S4096x512_S512x512_S4096x512_1_0_0_1_n_n.contr.Idx) :
    (dot_S4096x512_S512x512_S4096x512_1_0_0_1_n_n.lhsIdx i q 1).val = (q ⟨0, by decide⟩).val :=
  dot_S4096x512_S512x512_S4096x512_1_0_0_1_n_n.lhsIdx_val_of_single rfl i q
theorem rhs2_0 (i : S4096x512.Idx) (q : dot_S4096x512_S512x512_S4096x512_1_0_0_1_n_n.contr.Idx) :
    (dot_S4096x512_S512x512_S4096x512_1_0_0_1_n_n.rhsIdx i q 0).val = (q ⟨0, by decide⟩).val :=
  dot_S4096x512_S512x512_S4096x512_1_0_0_1_n_n.rhsIdx_val_of_single rfl i q
theorem rhs2_1 (i : S4096x512.Idx) (q : dot_S4096x512_S512x512_S4096x512_1_0_0_1_n_n.contr.Idx) :
    (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

/-- The matrix unit's product into a zero accumulator, at row `p` and column `n`: the sum over the 512 contracted positions. -/
theorem mm2_apply (l : FVec Ideal S4096x512 .bf16) (r : FVec Ideal S512x512 .bf16) (p : Fin 4096) (n : Fin 512) :
    matmul dot_S4096x512_S512x512_S4096x512_1_0_0_1_n_n none l r (constant S4096x512 .f32 0x00000000#32) (ix2 p n)
      = ∑ k : Fin 512, l (ix2 p k) * r (ix2 k n) := by
  show FloatOps.matmul dot_S4096x512_S512x512_S4096x512_1_0_0_1_n_n none l r (constant S4096x512 .f32 0x00000000#32) (ix2 p n) = _
  rw [Ideal.matmul_constant_zero_apply, ← Equiv.sum_comp (ValueIdx.contrEquiv1 dot_S4096x512_S512x512_S4096x512_1_0_0_1_n_n 512 rfl rfl).symm]
  refine Finset.sum_congr rfl fun k _ => ?_
  have hk := ValueIdx.contrEquiv1_symm_val dot_S4096x512_S512x512_S4096x512_1_0_0_1_n_n 512 rfl rfl k
  have el : dot_S4096x512_S512x512_S4096x512_1_0_0_1_n_n.lhsIdx (ix2 p n) ((ValueIdx.contrEquiv1 dot_S4096x512_S512x512_S4096x512_1_0_0_1_n_n 512 rfl rfl).symm k) = ix2 p k := funext fun a => Fin.ext (by
    match a with
    | ⟨0, _⟩ => exact lhs2_0 _ _
    | ⟨1, _⟩ => exact (lhs2_1 _ _).trans hk)
  have er : dot_S4096x512_S512x512_S4096x512_1_0_0_1_n_n.rhsIdx (ix2 p n) ((ValueIdx.contrEquiv1 dot_S4096x512_S512x512_S4096x512_1_0_0_1_n_n 512 rfl rfl).symm k) = ix2 k n := funext fun a => Fin.ext (by
    match a with
    | ⟨0, _⟩ => exact (rhs2_0 _ _).trans hk
    | ⟨1, _⟩ => exact rhs2_1 _ _)
  rw [el, er]

/-! ### The 4096x512 by 512x16 product -/

theorem lhs3_0 (i : S4096x16.Idx) (q : dot_S4096x512_S512x16_S4096x16_1_0_0_1_n_n.contr.Idx) :
    (dot_S4096x512_S512x16_S4096x16_1_0_0_1_n_n.lhsIdx i q 0).val = (i 0).val := by
  unfold DotDims.lhsIdx
  rw [dif_neg (show ¬(0 : Fin S4096x512.rank) ∈ dot_S4096x512_S512x16_S4096x16_1_0_0_1_n_n.lhsBatch by decide), dif_pos (show (0 : Fin S4096x512.rank) ∈ dot_S4096x512_S512x16_S4096x16_1_0_0_1_n_n.lhsNonContracting by decide)]
  rfl
theorem lhs3_1 (i : S4096x16.Idx) (q : dot_S4096x512_S512x16_S4096x16_1_0_0_1_n_n.contr.Idx) :
    (dot_S4096x512_S512x16_S4096x16_1_0_0_1_n_n.lhsIdx i q 1).val = (q ⟨0, by decide⟩).val :=
  dot_S4096x512_S512x16_S4096x16_1_0_0_1_n_n.lhsIdx_val_of_single rfl i q
theorem rhs3_0 (i : S4096x16.Idx) (q : dot_S4096x512_S512x16_S4096x16_1_0_0_1_n_n.contr.Idx) :
    (dot_S4096x512_S512x16_S4096x16_1_0_0_1_n_n.rhsIdx i q 0).val = (q ⟨0, by decide⟩).val :=
  dot_S4096x512_S512x16_S4096x16_1_0_0_1_n_n.rhsIdx_val_of_single rfl i q
theorem rhs3_1 (i : S4096x16.Idx) (q : dot_S4096x512_S512x16_S4096x16_1_0_0_1_n_n.contr.Idx) :
    (dot_S4096x512_S512x16_S4096x16_1_0_0_1_n_n.rhsIdx i q 1).val = (i 1).val := by
  unfold DotDims.rhsIdx
  rw [dif_neg (show ¬(1 : Fin S512x16.rank) ∈ dot_S4096x512_S512x16_S4096x16_1_0_0_1_n_n.rhsBatch by decide), dif_pos (show (1 : Fin S512x16.rank) ∈ dot_S4096x512_S512x16_S4096x16_1_0_0_1_n_n.rhsNonContracting by decide)]
  rfl

/-- The matrix unit's product into a zero accumulator, at row `p` and column `n`: the sum over the 512 contracted positions. -/
theorem mm3_apply (l : FVec Ideal S4096x512 .bf16) (r : FVec Ideal S512x16 .bf16) (p : Fin 4096) (n : Fin 16) :
    matmul dot_S4096x512_S512x16_S4096x16_1_0_0_1_n_n none l r (constant S4096x16 .f32 0x00000000#32) (ix2 p n)
      = ∑ k : Fin 512, l (ix2 p k) * r (ix2 k n) := by
  show FloatOps.matmul dot_S4096x512_S512x16_S4096x16_1_0_0_1_n_n none l r (constant S4096x16 .f32 0x00000000#32) (ix2 p n) = _
  rw [Ideal.matmul_constant_zero_apply, ← Equiv.sum_comp (ValueIdx.contrEquiv1 dot_S4096x512_S512x16_S4096x16_1_0_0_1_n_n 512 rfl rfl).symm]
  refine Finset.sum_congr rfl fun k _ => ?_
  have hk := ValueIdx.contrEquiv1_symm_val dot_S4096x512_S512x16_S4096x16_1_0_0_1_n_n 512 rfl rfl k
  have el : dot_S4096x512_S512x16_S4096x16_1_0_0_1_n_n.lhsIdx (ix2 p n) ((ValueIdx.contrEquiv1 dot_S4096x512_S512x16_S4096x16_1_0_0_1_n_n 512 rfl rfl).symm k) = ix2 p k := funext fun a => Fin.ext (by
    match a with
    | ⟨0, _⟩ => exact lhs3_0 _ _
    | ⟨1, _⟩ => exact (lhs3_1 _ _).trans hk)
  have er : dot_S4096x512_S512x16_S4096x16_1_0_0_1_n_n.rhsIdx (ix2 p n) ((ValueIdx.contrEquiv1 dot_S4096x512_S512x16_S4096x16_1_0_0_1_n_n 512 rfl rfl).symm k) = ix2 k n := funext fun a => Fin.ext (by
    match a with
    | ⟨0, _⟩ => exact (rhs3_0 _ _).trans hk
    | ⟨1, _⟩ => exact rhs3_1 _ _)
  rw [el, er]

/-! ### A bias added to every row, then `max · 0` -/

theorem bias_relu512 (M : FVec Ideal S4096x512 .f32) (b : Vec Ideal S512 .f32) (p : Fin 4096) (h : Fin 512) :
    maximumf (addf M (broadcastTo S4096x512 (shapeCast S1x512 b shapeCasts_S512_S1x512) broadcasts_S1x512_S4096x512))
        (broadcast S4096x512 (Scalar.ofBits (F := Ideal) .f32 0x00000000#32)) (ix2 p h)
      = max (M (ix2 p h) + b (ix1 h)) 0 := by
  show max (M (ix2 p h) + broadcastTo S4096x512 (shapeCast S1x512 b shapeCasts_S512_S1x512) broadcasts_S1x512_S4096x512 (ix2 p h))
      (Ideal.ofBits .f32 0x00000000#32) = _
  rw [broadcastTo_1b_ab_apply, shapeCast_a_1a_apply, Ideal.ofBits_zero_f32]

theorem bias16 (M : FVec Ideal S4096x16 .f32) (b : Vec Ideal S16 .f32) (p : Fin 4096) (q : Fin 16) :
    addf M (broadcastTo S4096x16 (shapeCast S1x16 b shapeCasts_S16_S1x16) broadcasts_S1x16_S4096x16) (ix2 p q)
      = M (ix2 p q) + b (ix1 q) := by
  show M (ix2 p q) + broadcastTo S4096x16 (shapeCast S1x16 b shapeCasts_S16_S1x16) broadcasts_S1x16_S4096x16 (ix2 p q) = _
  rw [broadcastTo_1b_ab_apply, shapeCast_a_1a_apply]

/-! ### The three layers of the body, named -/

/-- The first hidden layer on the block: `relu (x · W1 + b1)`. -/
def hid1 (x0 : Vec Ideal S4096x48 .f32) (x1 : Vec Ideal S48x512 .f32) (x2 : Vec Ideal S512 .f32) : FVec Ideal S4096x512 .f32 :=
  maximumf (addf (matmul dot_S4096x48_S48x512_S4096x512_1_0_0_1_n_n none
      (truncf .bf16 (shapeCast S4096x48 x0 shapeCasts_S4096x48_S4096x48) bitsLt_bf16_f32) (truncf .bf16 x1 bitsLt_bf16_f32)
      (constant S4096x512 .f32 0x00000000#32))
    (broadcastTo S4096x512 (shapeCast S1x512 x2 shapeCasts_S512_S1x512) broadcasts_S1x512_S4096x512))
    (broadcast S4096x512 (Scalar.ofBits (F := Ideal) .f32 0x00000000#32))

/-- The second hidden layer: `relu (y · W2 + b2)`. -/
def hid2 (y : FVec Ideal S4096x512 .f32) (x3 : Vec Ideal S512x512 .f32) (x4 : Vec Ideal S512 .f32) : FVec Ideal S4096x512 .f32 :=
  maximumf (addf (matmul dot_S4096x512_S512x512_S4096x512_1_0_0_1_n_n none
      (truncf .bf16 y bitsLt_bf16_f32) (truncf .bf16 x3 bitsLt_bf16_f32)
      (constant S4096x512 .f32 0x00000000#32))
    (broadcastTo S4096x512 (shapeCast S1x512 x4 shapeCasts_S512_S1x512) broadcasts_S1x512_S4096x512))
    (broadcast S4096x512 (Scalar.ofBits (F := Ideal) .f32 0x00000000#32))

/-- The output layer: `tanh (y · W3 + b3)`. -/
def outL (y : FVec Ideal S4096x512 .f32) (x5 : Vec Ideal S512x16 .f32) (x6 : Vec Ideal S16 .f32) : FVec Ideal S4096x16 .f32 :=
  tanh (addf (matmul dot_S4096x512_S512x16_S4096x16_1_0_0_1_n_n none
      (truncf .bf16 y bitsLt_bf16_f32) (truncf .bf16 x5 bitsLt_bf16_f32)
      (constant S4096x16 .f32 0x00000000#32))
    (broadcastTo S4096x16 (shapeCast S1x16 x6 shapeCasts_S16_S1x16) broadcasts_S1x16_S4096x16))

/-- The stored value is the three layers composed. -/
theorem pay_eq (x0 : Vec Ideal S4096x48 .f32) (x1 : Vec Ideal S48x512 .f32) (x2 : Vec Ideal S512 .f32)
    (x3 : Vec Ideal S512x512 .f32) (x4 : Vec Ideal S512 .f32) (x5 : Vec Ideal S512x16 .f32) (x6 : Vec Ideal S16 .f32) :
    k0_pay1 (F := Ideal) x0 x1 x2 x3 x4 x5 x6 = outL (hid2 (hid1 x0 x1 x2) x3 x4) x5 x6 := rfl

theorem hid1_apply (x0 : Vec Ideal S4096x48 .f32) (x1 : Vec Ideal S48x512 .f32) (x2 : Vec Ideal S512 .f32) (p : Fin 4096) (h : Fin 512) :
    hid1 x0 x1 x2 (ix2 p h) = max ((∑ f : Fin 48, x0 (ix2 p f) * x1 (ix2 f h)) + x2 (ix1 h)) 0 := by
  unfold hid1
  rw [bias_relu512, mm1_apply, shapeCast_self]
  rfl

theorem hid2_apply (y : FVec Ideal S4096x512 .f32) (x3 : Vec Ideal S512x512 .f32) (x4 : Vec Ideal S512 .f32) (p : Fin 4096) (k : Fin 512) :
    hid2 y x3 x4 (ix2 p k) = max ((∑ h : Fin 512, y (ix2 p h) * x3 (ix2 h k)) + x4 (ix1 k)) 0 := by
  unfold hid2
  rw [bias_relu512, mm2_apply]
  rfl

theorem outL_apply (y : FVec Ideal S4096x512 .f32) (x5 : Vec Ideal S512x16 .f32) (x6 : Vec Ideal S16 .f32) (p : Fin 4096) (q : Fin 16) :
    outL y x5 x6 (ix2 p q) = Ideal.tanh ((∑ k : Fin 512, y (ix2 p k) * x5 (ix2 k q)) + x6 (ix1 q)) := by
  unfold outL
  have e := bias16 (matmul dot_S4096x512_S512x16_S4096x16_1_0_0_1_n_n none (truncf .bf16 y bitsLt_bf16_f32)
    (truncf .bf16 x5 bitsLt_bf16_f32) (constant S4096x16 .f32 0x00000000#32)) x6 p q
  rw [mm3_apply] at e
  exact congrArg Ideal.tanh e

/-- Entry `(p, q)` of the stored block is the perceptron's output `q` on row `p` of the input block. -/
theorem pay_apply (x0 : Vec Ideal S4096x48 .f32) (x1 : Vec Ideal S48x512 .f32) (x2 : Vec Ideal S512 .f32)
    (x3 : Vec Ideal S512x512 .f32) (x4 : Vec Ideal S512 .f32) (x5 : Vec Ideal S512x16 .f32) (x6 : Vec Ideal S16 .f32)
    (p : Fin 4096) (q : Fin 16) :
    k0_pay1 (F := Ideal) x0 x1 x2 x3 x4 x5 x6 (ix2 p q)
      = mlpRow (fun f => x0 (ix2 p f)) (fun f h => x1 (ix2 f h)) (fun h => x2 (ix1 h)) (fun h k => x3 (ix2 h k))
          (fun k => x4 (ix1 k)) (fun k r => x5 (ix2 k r)) (fun r => x6 (ix1 r)) q := by
  rw [pay_eq, outL_apply]
  simp only [hid2_apply, hid1_apply]
  rfl

end Cert.KernelIdeal.Pay

end
-- ==== Proof.KIValue.lean ====
/-
  The value of `KernelIdeal`'s run at the ideal instance.  Grid point `t` writes back rows `4096 t … 4096 t + 4095`
  of the 131072 × 16 result matrix, each row the perceptron's output on the same row of the 131072 × 48 input matrix
  (the input window moves with the output window; the weights' and biases' windows are the whole arrays at every
  point).  The 32 blocks tile the result matrix, so after the run it is ONE function (`rows`) of the input matrix
  and the six weight arrays.  The input matrix is the row-major reshape of the gathered rank-4 array the host
  operations build, and the program's result the row-major reshape of the result matrix: row `(b·8 + r)·8 + u`
  of either matrix is row `(b, r, u)` of the rank-4 array.
-/
import proofs.«153805_j36867999269161_1_alg».proof.Proof.KIFrame
import proofs.«153805_j36867999269161_1_alg».proof.Proof.KIPay
import proofs.«153805_j36867999269161_1_alg».proof.Proof.Gen.ReferenceIdeal.Read

set_option maxRecDepth 16384

noncomputable section

namespace Cert.KernelIdeal.Val

open Cert.KernelIdeal Cert.KernelIdeal.Gen Cert.KernelIdeal.Fr Cert.KernelIdeal.Pay Cert.Mlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The result matrix as one function -/

/-- Row `j 0`, column `j 1` of the result matrix: the perceptron's output `j 1` on row `j 0` of the input matrix. -/
def rows (X : Vec Ideal S131072x48 .f32) (W1 : Vec Ideal S48x512 .f32) (b1 : Vec Ideal S512 .f32) (W2 : Vec Ideal S512x512 .f32) (b2 : Vec Ideal S512 .f32) (W3 : Vec Ideal S512x16 .f32) (b3 : Vec Ideal S16 .f32) : Vec Ideal S131072x16 .f32 := fun j =>
  mlpRow (fun f => X (ix2 (⟨(j 0).val, (j 0).isLt⟩ : Fin 131072) f)) (fun f h => W1 (ix2 f h)) (fun h => b1 (ix1 h))
    (fun h k => W2 (ix2 h k)) (fun k => b2 (ix1 k)) (fun k s => W3 (ix2 k s)) (fun s => b3 (ix1 s)) (⟨(j 1).val, (j 1).isLt⟩ : Fin 16)

theorem rows_apply (X : Vec Ideal S131072x48 .f32) (W1 : Vec Ideal S48x512 .f32) (b1 : Vec Ideal S512 .f32) (W2 : Vec Ideal S512x512 .f32) (b2 : Vec Ideal S512 .f32) (W3 : Vec Ideal S512x16 .f32) (b3 : Vec Ideal S16 .f32) (n : Fin 131072) (q : Fin 16) :
    rows X W1 b1 W2 b2 W3 b3 (ix2 n q) = mlpRow (fun f => X (ix2 n f)) (fun f h => W1 (ix2 f h)) (fun h => b1 (ix1 h))
      (fun h k => W2 (ix2 h k)) (fun k => b2 (ix1 k)) (fun k s => W3 (ix2 k s)) (fun s => b3 (ix1 s)) q := rfl

/-! ## The windows' blocks, each at its literal type -/

abbrev blk0 (c : Dev nD) (t : Fin cfg0.N) : Vec Ideal S4096x48 .f32 := iblk m c 0 t
abbrev blk1 (c : Dev nD) (t : Fin cfg0.N) : Vec Ideal S48x512 .f32 := iblk m c 1 t
abbrev blk2 (c : Dev nD) (t : Fin cfg0.N) : Vec Ideal S512 .f32 := iblk m c 2 t
abbrev blk3 (c : Dev nD) (t : Fin cfg0.N) : Vec Ideal S512x512 .f32 := iblk m c 3 t
abbrev blk4 (c : Dev nD) (t : Fin cfg0.N) : Vec Ideal S512 .f32 := iblk m c 4 t
abbrev blk5 (c : Dev nD) (t : Fin cfg0.N) : Vec Ideal S512x16 .f32 := iblk m c 5 t
abbrev blk6 (c : Dev nD) (t : Fin cfg0.N) : Vec Ideal S16 .f32 := iblk m c 6 t

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the input window's row block is the output window's, every other block
    index is zero, and the row block stays below 32. -/
theorem idx_facts : ∀ t : Fin cfg0.N, win0_0.index t (0 : Fin 2) = win0_7.index t (0 : Fin 2)
    ∧ win0_0.index t (1 : Fin 2) = 0
    ∧ win0_7.index t (1 : Fin 2) = 0
    ∧ win0_7.index t (0 : Fin 2) ≤ 31
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0 :=
  (by decide +kernel : ∀ t : Fin grid0.N, _)

/-- Every one of the 32 row blocks is some point's. -/
theorem idx_onto : ∀ q0 : Fin 32, ∃ t : Fin cfg0.N, win0_7.index t = ![q0.val, 0] :=
  (by decide +kernel : ∀ q0 : Fin 32, ∃ t : Fin grid0.N, win0_7.index t = ![q0.val, 0])

/-- Row `p` of the input window's block at point `t` is row `(row block) · 4096 + p` of the input matrix. -/
theorem blk0_read (c : Dev nD) (t : Fin cfg0.N) (p : Fin 4096) (f : Fin 48) (n : Fin 131072)
    (hn : n.val = win0_7.index t (0 : Fin 2) * 4096 + p.val) :
    blk0 m c t (ix2 p f) = V m c main_v13 (ix2 n f) := by
  obtain ⟨e0, e1, e2, e3, e4, e5, e6, e7, e8, e9, e10, e11, e12⟩ := idx_facts t
  show V m c main_v13 (((cfg0.win 0).blk t).view.emb (ix2 p f)) = V m c main_v13 (ix2 n f)
  refine congrArg _ (funext fun a => Fin.ext ?_)
  match a with
    | ⟨0, _⟩ => show win0_0.index t (0 : Fin 2) * 4096 + 1 * p.val = n.val; omega
    | ⟨1, _⟩ => show win0_0.index t (1 : Fin 2) * 48 + 1 * f.val = f.val; omega
/-- Window 1's block is the whole of `main_arg3` at every point: its block index never moves from zero. -/
theorem blk1_read (c : Dev nD) (t : Fin cfg0.N) (y0 : Fin 48) (y1 : Fin 512) :
    blk1 m c t (ix2 y0 y1) = V m c main_arg3 (ix2 y0 y1) := by
  obtain ⟨e0, e1, e2, e3, e4, e5, e6, e7, e8, e9, e10, e11, e12⟩ := idx_facts t
  show V m c main_arg3 (((cfg0.win 1).blk t).view.emb (ix2 y0 y1)) = V m c main_arg3 (ix2 y0 y1)
  refine congrArg _ (funext fun a => Fin.ext ?_)
  match a with
    | ⟨0, _⟩ => show win0_1.index t (0 : Fin 2) * 48 + 1 * y0.val = y0.val; omega
    | ⟨1, _⟩ => show win0_1.index t (1 : Fin 2) * 512 + 1 * y1.val = y1.val; omega
/-- Window 2's block is the whole of `main_arg4` at every point: its block index never moves from zero. -/
theorem blk2_read (c : Dev nD) (t : Fin cfg0.N) (y0 : Fin 512) :
    blk2 m c t (ix1 y0) = V m c main_arg4 (ix1 y0) := by
  obtain ⟨e0, e1, e2, e3, e4, e5, e6, e7, e8, e9, e10, e11, e12⟩ := idx_facts t
  show V m c main_arg4 (((cfg0.win 2).blk t).view.emb (ix1 y0)) = V m c main_arg4 (ix1 y0)
  refine congrArg _ (funext fun a => Fin.ext ?_)
  match a with
    | ⟨0, _⟩ => show win0_2.index t (0 : Fin 1) * 512 + 1 * y0.val = y0.val; omega
/-- Window 3's block is the whole of `main_arg5` at every point: its block index never moves from zero. -/
theorem blk3_read (c : Dev nD) (t : Fin cfg0.N) (y0 : Fin 512) (y1 : Fin 512) :
    blk3 m c t (ix2 y0 y1) = V m c main_arg5 (ix2 y0 y1) := by
  obtain ⟨e0, e1, e2, e3, e4, e5, e6, e7, e8, e9, e10, e11, e12⟩ := idx_facts t
  show V m c main_arg5 (((cfg0.win 3).blk t).view.emb (ix2 y0 y1)) = V m c main_arg5 (ix2 y0 y1)
  refine congrArg _ (funext fun a => Fin.ext ?_)
  match a with
    | ⟨0, _⟩ => show win0_3.index t (0 : Fin 2) * 512 + 1 * y0.val = y0.val; omega
    | ⟨1, _⟩ => show win0_3.index t (1 : Fin 2) * 512 + 1 * y1.val = y1.val; omega
/-- Window 4's block is the whole of `main_arg6` at every point: its block index never moves from zero. -/
theorem blk4_read (c : Dev nD) (t : Fin cfg0.N) (y0 : Fin 512) :
    blk4 m c t (ix1 y0) = V m c main_arg6 (ix1 y0) := by
  obtain ⟨e0, e1, e2, e3, e4, e5, e6, e7, e8, e9, e10, e11, e12⟩ := idx_facts t
  show V m c main_arg6 (((cfg0.win 4).blk t).view.emb (ix1 y0)) = V m c main_arg6 (ix1 y0)
  refine congrArg _ (funext fun a => Fin.ext ?_)
  match a with
    | ⟨0, _⟩ => show win0_4.index t (0 : Fin 1) * 512 + 1 * y0.val = y0.val; omega
/-- Window 5's block is the whole of `main_arg7` at every point: its block index never moves from zero. -/
theorem blk5_read (c : Dev nD) (t : Fin cfg0.N) (y0 : Fin 512) (y1 : Fin 16) :
    blk5 m c t (ix2 y0 y1) = V m c main_arg7 (ix2 y0 y1) := by
  obtain ⟨e0, e1, e2, e3, e4, e5, e6, e7, e8, e9, e10, e11, e12⟩ := idx_facts t
  show V m c main_arg7 (((cfg0.win 5).blk t).view.emb (ix2 y0 y1)) = V m c main_arg7 (ix2 y0 y1)
  refine congrArg _ (funext fun a => Fin.ext ?_)
  match a with
    | ⟨0, _⟩ => show win0_5.index t (0 : Fin 2) * 512 + 1 * y0.val = y0.val; omega
    | ⟨1, _⟩ => show win0_5.index t (1 : Fin 2) * 16 + 1 * y1.val = y1.val; omega
/-- Window 6's block is the whole of `main_arg8` at every point: its block index never moves from zero. -/
theorem blk6_read (c : Dev nD) (t : Fin cfg0.N) (y0 : Fin 16) :
    blk6 m c t (ix1 y0) = V m c main_arg8 (ix1 y0) := by
  obtain ⟨e0, e1, e2, e3, e4, e5, e6, e7, e8, e9, e10, e11, e12⟩ := idx_facts t
  show V m c main_arg8 (((cfg0.win 6).blk t).view.emb (ix1 y0)) = V m c main_arg8 (ix1 y0)
  refine congrArg _ (funext fun a => Fin.ext ?_)
  match a with
    | ⟨0, _⟩ => show win0_6.index t (0 : Fin 1) * 16 + 1 * y0.val = y0.val; omega

/-! ## What a point writes back, the cover, and the final array -/

/-- Point `t` writes back block `t` of `rows` of the arrays as the region finds them. -/
theorem flushed_eq (c : Dev nD) (t : Fin cfg0.N) :
    (dats m 0 c).flushed 7 t = ((cfg0.win 7).blk t).view.read (Elt Ideal) (rows (V m c main_v13) (V m c main_arg3) (V m c main_arg4) (V m c main_arg5) (V m c main_arg6) (V m c main_arg7) (V m c main_arg8)) := by
  show (cfg0.win 7).cut (grid0.coords t) ((dats m 0 c).after 7 t) = _
  rw [after0_7]
  unfold out0_7
  rw [View.canon_unit_zero hz2]
  simp only [View.ld_unit_zero (S := S4096x48) hz2, View.ld_unit_zero (S := S48x512) hz2, View.ld_unit_zero (S := S512) hz1,
    View.ld_unit_zero (S := S512x512) hz2, View.ld_unit_zero (S := S512x16) hz2, View.ld_unit_zero (S := S16) hz1]
  funext j
  obtain ⟨p, q, rfl⟩ : ∃ (p : Fin 4096) (q : Fin 16), j = ix2 p q := ⟨j 0, j 1, eq_ix2 j⟩
  obtain ⟨e0, e1, e2, e3, e4, e5, e6, e7, e8, e9, e10, e11, e12⟩ := idx_facts t
  have hn : win0_7.index t (0 : Fin 2) * 4096 + p.val < 131072 := by have := p.isLt; omega
  have hj : ((cfg0.win 7).blk t).view.emb (ix2 p q) = ix2 (⟨win0_7.index t (0 : Fin 2) * 4096 + p.val, hn⟩ : Fin 131072) q := by
    funext a; apply Fin.ext
    match a with
    | ⟨0, _⟩ => show win0_7.index t (0 : Fin 2) * 4096 + 1 * p.val = win0_7.index t (0 : Fin 2) * 4096 + p.val; omega
    | ⟨1, _⟩ => show win0_7.index t (1 : Fin 2) * 16 + 1 * q.val = q.val; omega
  show k0_pay1 (F := Ideal) (blk0 m c t) (blk1 m c t) (blk2 m c t) (blk3 m c t) (blk4 m c t) (blk5 m c t) (blk6 m c t) (ix2 p q)
    = rows (V m c main_v13) (V m c main_arg3) (V m c main_arg4) (V m c main_arg5) (V m c main_arg6) (V m c main_arg7) (V m c main_arg8) (((cfg0.win 7).blk t).view.emb (ix2 p q))
  rw [hj, rows_apply]
  refine (pay_apply (blk0 m c t) (blk1 m c t) (blk2 m c t) (blk3 m c t) (blk4 m c t) (blk5 m c t) (blk6 m c t) p q).trans ?_
  simp only [blk0_read m c t p _ ⟨win0_7.index t (0 : Fin 2) * 4096 + p.val, hn⟩ rfl, blk1_read, blk2_read, blk3_read, blk4_read, blk5_read, blk6_read]

/-- An index of the result matrix is in point `t`'s block iff each coordinate is in the block's range. -/
theorem mem_blk (t : Fin cfg0.N) (i : S131072x16.Idx) :
    i ∈ ((cfg0.win 7).blk t).view.set ↔ ∀ a : Fin 2, win0_7.index t a * S4096x16.size a ≤ (i a).val ∧ (i a).val < win0_7.index t a * S4096x16.size a + S4096x16.size a := by
  show i ∈ ((View.whole main_v14).slice (win0_7.rect t)).set ↔ _
  rw [View.set_slice_whole, Rect.mem_set_unit]
  exact Iff.rfl

/-- The 32 blocks tile the result matrix: row `n` is in the block of the point whose row block is `n / 4096`. -/
theorem cover (i : S131072x16.Idx) : ∃ t : Fin cfg0.N, (cfg0.win 7).flush t = true ∧ i ∈ ((cfg0.win 7).blk t).view.set := by
  have hi0 : (i 0).val < 131072 := (i 0).isLt
  have hi1 : (i 1).val < 16 := (i 1).isLt
  obtain ⟨t, ht⟩ := idx_onto ⟨(i 0).val / 4096, by omega⟩
  have q0 : win0_7.index t (0 : Fin 2) = (i 0).val / 4096 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 4096 ≤ (i 0).val ∧ (i 0).val < win0_7.index t (0 : Fin 2) * 4096 + 4096; omega
  | ⟨1, _⟩ => show win0_7.index t (1 : Fin 2) * 16 ≤ (i 1).val ∧ (i 1).val < win0_7.index t (1 : Fin 2) * 16 + 16; omega

/-- The result matrix after the run. -/
theorem final (c : Dev nD) : (dats m 0 c).arrAt 7 cfg0.N = rows (V m c main_v13) (V m c main_arg3) (V m c main_arg4) (V m c main_arg5) (V m c main_arg6) (V m c main_arg7) (V m c main_arg8) :=
  (dats m 0 c).arrAt_eq_of_cover 7 (rows (V m c main_v13) (V m c main_arg3) (V m c main_arg4) (V m c main_arg5) (V m c main_arg6) (V m c main_arg7) (V m c main_arg8)) (fun t _ => flushed_eq m c t) cover

/-! ## The input matrix and the program's result -/

/-- The gathered rank-4 array the host operations build from the first three arguments: the same array, by the same
    operations, that the reference's program builds (it is never opened). -/
abbrev gathered (a0 : Vec Ideal S2048x8x8x16 .f32) (a1 : Vec Ideal S2048x16x8 .f32) (a2 : Vec Ideal S2048x8x128 .f32) : Vec Ideal S2048x8x8x48 .f32 :=
  Cert.ReferenceIdeal.Read.val_main_v12 (F := Ideal) a0 a1 a2

/-- The region finds the input matrix at the row-major reshape of the gathered array. -/
theorem V_v13 (c : Dev nD) : V m c main_v13 = shapeCast S131072x48
      (gathered (m ((c : Thread nD τ).loc main_arg0)) (m ((c : Thread nD τ).loc main_arg1)) (m ((c : Thread nD τ).loc main_arg2)))
      shapeCasts_S2048x8x8x48_S131072x48 := by
  show StableHlo.after hostOps0 (fun b => m (c, b)) (Proc.devRef .tc main_v13) = _
  after_results
  rfl

/-- The program's result after the reshape that follows the region. -/
theorem W_v15 (c : Dev nD) : Pipeline.afterTail₀ cfgs (dats m) 0 (V0 m) [hostOps1] c main_v15
      = shapeCast S2048x8x8x16 ((dats m 0 c).arrAt 7 cfg0.N) shapeCasts_S131072x16_S2048x8x8x16 := by
  unfold Pipeline.afterTail₀
  show StableHlo.after hostOps1 _ (Proc.devRef .tc main_v15) = _
  after_results
  exact congrArg (fun A => shapeCast S2048x8x8x16 A shapeCasts_S131072x16_S2048x8x8x16)
    (Pipeline.withArrays_arr spec0 launch0.win.arr_inj c _ _ 7)

/-- Entry `(b, r, u, q)` of the program's result: the perceptron's output `q` on row `(b, r, u)` of the gathered array. -/
theorem result_at (c : Dev nD) (b : Fin 2048) (r u : Fin 8) (q : Fin 16) :
    Pipeline.afterTail₀ cfgs (dats m) 0 (V0 m) [hostOps1] c main_v15 (ix4 b r u q)
      = mlpRow (fun f => gathered (m ((c : Thread nD τ).loc main_arg0)) (m ((c : Thread nD τ).loc main_arg1)) (m ((c : Thread nD τ).loc main_arg2)) (ix4 b r u f))
          (fun f h => m ((c : Thread nD τ).loc main_arg3) (ix2 f h)) (fun h => m ((c : Thread nD τ).loc main_arg4) (ix1 h))
          (fun h k => m ((c : Thread nD τ).loc main_arg5) (ix2 h k)) (fun k => m ((c : Thread nD τ).loc main_arg6) (ix1 k))
          (fun k s => m ((c : Thread nD τ).loc main_arg7) (ix2 k s)) (fun s => m ((c : Thread nD τ).loc main_arg8) (ix1 s)) q := by
  have hb := b.isLt; have hr := r.isLt; have hu := u.isLt
  have hn : (b.val * 8 + r.val) * 8 + u.val < 131072 := by omega
  rw [W_v15, final, V_v13, V_main_arg3, V_main_arg4, V_main_arg5, V_main_arg6, V_main_arg7, V_main_arg8]
  rw [shapeCast_apply _ shapeCasts_S131072x16_S2048x8x8x16 (ix4 b r u q) (ix2 (⟨(b.val * 8 + r.val) * 8 + u.val, hn⟩ : Fin 131072) q)
    (by rw [Shape.rowMajor_val_two, Shape.rowMajor_val_four]; rfl)]
  rw [rows_apply]
  congr 1
  funext f
  exact shapeCast_apply _ shapeCasts_S2048x8x8x48_S131072x48 (ix2 (⟨(b.val * 8 + r.val) * 8 + u.val, hn⟩ : Fin 131072) f) (ix4 b r u f)
    (by rw [Shape.rowMajor_val_two, Shape.rowMajor_val_four]; rfl)

/-! ## The run, with the result named -/

/-- Every weakly fair execution terminates with the program's result at the reshape of the result matrix and the nine
    arguments as launched: the frame run's post read at `main_v15` (a buffer no window stages) and at the arguments. -/
theorem run_value : θ_run defs (onTc (τ := τ) (main (F := Ideal))) ⟨m, fun _ => 0, ρ⟩ (fun r => ∀ c : Dev nD,
      r.2.mem ((c.tc : Thread nD τ).loc main_v15) = Pipeline.afterTail₀ cfgs (dats m) 0 (V0 m) [hostOps1] c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).2 main_v15 (Pipeline.mem_restRefs_of main_v15 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c)))⟩) (run_main m ρ)

end Cert.KernelIdeal.Val

end
-- ==== Proof.RefRow.lean ====
/-
  The reference's result read at an entry, at the ideal instance: entry `(b, r, u, q)` of its rank-4 result is
  the perceptron's output `q` on the row `(b, r, u, ·)` of the gathered input array — the array the concatenation
  writes, kept here as ONE function of the first three arguments and never opened, because the kernel's program
  builds the very same array with the very same operations.  Each contraction over the last axis is a sum over
  that axis; a bias broadcast along the three leading axes is the bias at the last coordinate; jax's `relu` is
  `max · 0` against a zero splat.
-/
import proofs.«153805_j36867999269161_1_alg».proof.Proof.Gen.ReferenceIdeal.Read
import proofs.«153805_j36867999269161_1_alg».proof.Proof.MlpRow

noncomputable section

namespace Cert.ReferenceIdeal.Row

open Cert.ReferenceIdeal Cert.ReferenceIdeal.Gen Cert.ReferenceIdeal.Read Cert.Mlp
open Idealize.ShloMosaic Idealize.ShloMosaic.ValueIdx

/-! ### The index maps of the stages, at an index given by its four coordinates -/

theorem l23 (b : Fin 2048) (r u : Fin 8) (q : Fin 16) (k : Fin 512) : lidx_main_v23 (ix4 b r u q) k = ix4 b r u k :=
  funext fun a => Fin.ext (by match a with | ⟨0, _⟩ => rfl | ⟨1, _⟩ => rfl | ⟨2, _⟩ => rfl | ⟨3, _⟩ => rfl)
theorem r23 (b : Fin 2048) (r u : Fin 8) (q : Fin 16) (k : Fin 512) : ridx_main_v23 (ix4 b r u q) k = ix2 k q :=
  funext fun a => Fin.ext (by match a with | ⟨0, _⟩ => rfl | ⟨1, _⟩ => rfl)
theorem b25 (b : Fin 2048) (r u : Fin 8) (q : Fin 16) : idx_main_v24 (idx_main_v25 (ix4 b r u q)) = ix1 q :=
  funext fun a => Fin.ext (by match a with | ⟨0, _⟩ => rfl)
theorem l18 (b : Fin 2048) (r u : Fin 8) (k : Fin 512) (h : Fin 512) : lidx_main_v18 (ix4 b r u k) h = ix4 b r u h :=
  funext fun a => Fin.ext (by match a with | ⟨0, _⟩ => rfl | ⟨1, _⟩ => rfl | ⟨2, _⟩ => rfl | ⟨3, _⟩ => rfl)
theorem r18 (b : Fin 2048) (r u : Fin 8) (k : Fin 512) (h : Fin 512) : ridx_main_v18 (ix4 b r u k) h = ix2 h k :=
  funext fun a => Fin.ext (by match a with | ⟨0, _⟩ => rfl | ⟨1, _⟩ => rfl)
theorem b20 (b : Fin 2048) (r u : Fin 8) (k : Fin 512) : idx_main_v19 (idx_main_v20 (ix4 b r u k)) = ix1 k :=
  funext fun a => Fin.ext (by match a with | ⟨0, _⟩ => rfl)
theorem l13 (b : Fin 2048) (r u : Fin 8) (h : Fin 512) (f : Fin 48) : lidx_main_v13 (ix4 b r u h) f = ix4 b r u f :=
  funext fun a => Fin.ext (by match a with | ⟨0, _⟩ => rfl | ⟨1, _⟩ => rfl | ⟨2, _⟩ => rfl | ⟨3, _⟩ => rfl)
theorem r13 (b : Fin 2048) (r u : Fin 8) (h : Fin 512) (f : Fin 48) : ridx_main_v13 (ix4 b r u h) f = ix2 f h :=
  funext fun a => Fin.ext (by match a with | ⟨0, _⟩ => rfl | ⟨1, _⟩ => rfl)
theorem b15 (b : Fin 2048) (r u : Fin 8) (h : Fin 512) : idx_main_v14 (idx_main_v15 (ix4 b r u h)) = ix1 h :=
  funext fun a => Fin.ext (by match a with | ⟨0, _⟩ => rfl)

/-- jax's `relu` compares against a splat of the zero word. -/
theorem zero0 (i : S2048x8x8x512.Idx) : val_main_call0_v0 (F := Ideal) i = 0 := by
  rw [val_main_call0_v0_apply, val_main_call0_cst_apply]; exact Ideal.ofBits_zero_f32
theorem zero1 (i : S2048x8x8x512.Idx) : val_main_call1_v0 (F := Ideal) i = 0 := by
  rw [val_main_call1_v0_apply, val_main_call1_cst_apply]; exact Ideal.ofBits_zero_f32

/-! ### The three layers -/

variable (x0 : (⟨S2048x8x8x16, .f32⟩ : BufTy).Contents (Elt Ideal)) (x1 : (⟨S2048x16x8, .f32⟩ : BufTy).Contents (Elt Ideal))
  (x2 : (⟨S2048x8x128, .f32⟩ : BufTy).Contents (Elt Ideal)) (x3 : (⟨S48x512, .f32⟩ : BufTy).Contents (Elt Ideal))
  (x4 : (⟨S512, .f32⟩ : BufTy).Contents (Elt Ideal)) (x5 : (⟨S512x512, .f32⟩ : BufTy).Contents (Elt Ideal))
  (x6 : (⟨S512, .f32⟩ : BufTy).Contents (Elt Ideal)) (x7 : (⟨S512x16, .f32⟩ : BufTy).Contents (Elt Ideal))
  (x8 : (⟨S16, .f32⟩ : BufTy).Contents (Elt Ideal))

theorem v17_at (b : Fin 2048) (r u : Fin 8) (h : Fin 512) :
    val_main_v17 (F := Ideal) x0 x1 x2 x3 x4 (ix4 b r u h)
      = max ((∑ f : Fin 48, val_main_v12 (F := Ideal) x0 x1 x2 (ix4 b r u f) * x3 (ix2 f h)) + x4 (ix1 h)) 0 := by
  rw [val_main_v17_apply, val_main_v16_apply, val_main_v13_apply, val_main_v15_apply, val_main_v14_apply, zero0, b15]
  simp only [l13, r13]
  rfl

theorem v22_at (b : Fin 2048) (r u : Fin 8) (k : Fin 512) :
    val_main_v22 (F := Ideal) x0 x1 x2 x3 x4 x5 x6 (ix4 b r u k)
      = max ((∑ h : Fin 512, val_main_v17 (F := Ideal) x0 x1 x2 x3 x4 (ix4 b r u h) * x5 (ix2 h k)) + x6 (ix1 k)) 0 := by
  rw [val_main_v22_apply, val_main_v21_apply, val_main_v18_apply, val_main_v20_apply, val_main_v19_apply, zero1, b20]
  simp only [l18, r18]
  rfl

theorem v27_at (b : Fin 2048) (r u : Fin 8) (q : Fin 16) :
    val_main_v27 (F := Ideal) x0 x1 x2 x3 x4 x5 x6 x7 x8 (ix4 b r u q)
      = Ideal.tanh ((∑ k : Fin 512, val_main_v22 (F := Ideal) x0 x1 x2 x3 x4 x5 x6 (ix4 b r u k) * x7 (ix2 k q)) + x8 (ix1 q)) := by
  rw [val_main_v27_apply, val_main_v26_apply, val_main_v23_apply, val_main_v25_apply, val_main_v24_apply, b25]
  simp only [l23, r23]
  rfl

/-- Entry `(b, r, u, q)` of the reference's result is the perceptron's output `q` on row `(b, r, u)` of the gathered array. -/
theorem ref_apply (b : Fin 2048) (r u : Fin 8) (q : Fin 16) :
    val_main_v27 (F := Ideal) x0 x1 x2 x3 x4 x5 x6 x7 x8 (ix4 b r u q)
      = mlpRow (fun f => val_main_v12 (F := Ideal) x0 x1 x2 (ix4 b r u f)) (fun f h => x3 (ix2 f h)) (fun h => x4 (ix1 h))
          (fun h k => x5 (ix2 h k)) (fun k => x6 (ix1 k)) (fun k s => x7 (ix2 k s)) (fun s => x8 (ix1 s)) q := by
  rw [v27_at]
  simp only [v22_at, v17_at]
  rfl

end Cert.ReferenceIdeal.Row

end
-- ==== Proof.lean ====
/-
  The claim: a three-layer perceptron (48 → 512 → 512 → 16, relu, relu, tanh) applied to each of the 131072 rows
  `(b, r, u)` of an input array gathered from the first three arguments (a sum over one axis of the first, a
  transpose of the second, two transposed halves of the third, concatenated along the last axis).

  The kernel's program reshapes the gathered array to a 131072 × 48 matrix, runs one kernel region over 32 blocks
  of 4096 rows — each block three products of the matrix unit into zero accumulators, with operands cast to bf16,
  which on extended reals is the identity — and reshapes the 131072 × 16 result back.  The reference contracts the
  last axis of the rank-4 array three times.  Both build the gathered array by the same operations, so it is
  carried as one array and never opened; on it, entry `(b, r, u, q)` of either result is the same sum of products,
  term by term, so no algebraic law and no finiteness of the inputs is needed: the precondition is not used.

  The frames: the kernel's two programs (at the word-level instance and at the ideal one) run to the end with their
  nine arguments unchanged by one argument generic in the instance (the region's body stores one function of its
  seven input blocks at every grid point); the reference's frame is its run with the result dropped.  The ideal
  pass rewrote nothing, so the kernel's idealization is its own text.
-/
import proofs.«153805_j36867999269161_1_alg».proof.Defs
import proofs.«153805_j36867999269161_1_alg».proof.Proof.Gen.Kernel
import proofs.«153805_j36867999269161_1_alg».proof.Proof.Gen.KernelIdeal
import proofs.«153805_j36867999269161_1_alg».proof.Proof.Gen.ReferenceIdeal
import proofs.«153805_j36867999269161_1_alg».proof.Proof.Gen.Pre_finite_inputs
import proofs.«153805_j36867999269161_1_alg».proof.Proof.Gen.ReferenceIdeal.Run
import proofs.«153805_j36867999269161_1_alg».proof.Proof.Gen.ReferenceIdeal.Read
import proofs.«153805_j36867999269161_1_alg».proof.Proof.KFrame
import proofs.«153805_j36867999269161_1_alg».proof.Proof.KIFrame
import proofs.«153805_j36867999269161_1_alg».proof.Proof.KIValue
import proofs.«153805_j36867999269161_1_alg».proof.Proof.RefRow
import Idealize.ShloMosaic.Adequacy
import Idealize.ShloMosaic.Init

noncomputable section

namespace Cert.Proof

open Idealize.ShloMosaic Idealize.ShloMosaic.ValueIdx Idealize.SL.Sem

/-- The word-level program runs to the end and leaves its nine arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the nine arguments both programs end with the same result: at every entry
    `(b, r, u, q)` the perceptron's output `q` on row `(b, r, u)` of the gathered array. -/
theorem algebraic : Cert.algebraic_KernelIdeal_ReferenceIdeal := by
  intro m ρ m' ρ' _ hagree
  refine ⟨fun c => Pipeline.afterTail₀ Cert.KernelIdeal.cfgs (Cert.KernelIdeal.Fr.dats m) 0 (Cert.KernelIdeal.Fr.V0 m)
      [Cert.KernelIdeal.Gen.hostOps1] c Cert.KernelIdeal.main_v15, Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v27_eq, h0, h1, h2, h3, h4, h5, h6, h7, h8]
  funext i
  obtain ⟨b, r, u, q, rfl⟩ : ∃ (b : Fin 2048) (r u : Fin 8) (q : Fin 16), i = ix4 b r u q := ⟨i 0, i 1, i 2, i 3, eq_ix4 i⟩
  rw [Cert.ReferenceIdeal.Row.ref_apply]
  exact (Cert.KernelIdeal.Val.result_at m c b r u q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
